-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S128x128 : Shape := ⟨2, ![128, 128]⟩
abbrev S128 : Shape := ⟨1, ![128]⟩
abbrev S256x128 : Shape := ⟨2, ![256, 128]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg7 : FVec F S128 .f32) (main_arg8 : IVec S640000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S640000 32 := broadcastInDim S640000 ![] bcast_S_S640000 main_c_14
  let main_v40 : IVec S640000 1 := cmpi .sge main_arg8 main_v39
  let main_c_15 : IVec S_ 32 := constantI S_ 32 40000#32
  let main_v41 : IVec S640000 32 := broadcastInDim S640000 ![] bcast_S_S640000 main_c_15
  let main_v42 : IVec S640000 1 := cmpi .slt main_arg8 main_v41
  let main_v43 : IVec S640000 1 := andi main_v40 main_v42
  let main_c_16 : IVec S_ 1 := constantI S_ 1 1#1
  let main_v44 : IVec S_ 1 := (fun x v => Host.reduce IntOp.andi x v reducesTo_S640000_S_d0 h_S_) main_v43 main_c_16
  let main_v45 : IVec S_ 1 := andi main_v38 main_v44
  main_v45

def fn_part1 {F : FTy → Type} [FloatOps F] (main_arg4 : FVec F S256x128 .f32) (main_arg5 : FVec F S128 .f32) (main_arg6 : FVec F S128x128 .f32) (main_arg7 : FVec F S128 .f32) (main_arg8 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S40000x128 .f32) (main_arg1 : FVec F S40000x128 .f32) (main_arg2 : FVec F S128x128 .f32) (main_arg3 : FVec F S128 .f32) (main_arg4 : FVec F S256x128 .f32) (main_arg5 : FVec F S128 .f32) (main_arg6 : FVec F S128x128 .f32) (main_arg7 : FVec F S128 .f32) (main_arg8 : IVec S640000 32) (main_arg9 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S40000x128 : Shape := ⟨2, ![40000, 128]⟩
abbrev S128x128 : Shape := ⟨2, ![128, 128]⟩
abbrev S128 : Shape := ⟨1, ![128]⟩
abbrev S256x128 : Shape := ⟨2, ![256, 128]⟩
abbrev S640000 : Shape := ⟨1, ![640000]⟩
abbrev S1x128 : Shape := ⟨2, ![1, 128]⟩
abbrev S4000x128 : Shape := ⟨2, ![4000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S40000 : Shape := ⟨1, ![40000]⟩
abbrev S40000x1 : Shape := ⟨2, ![40000, 1]⟩

abbrev nBuf : Space → Nat
  | .hbm => 56
  | .vmem => 17
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S640000, .i32⟩
  | .hbm, ⟨9, _⟩ => ⟨S640000, .i32⟩
  | .hbm, ⟨10, _⟩ => ⟨S1x128, .f32⟩
  | .hbm, ⟨11, _⟩ => ⟨S40000x128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S1, .i32⟩
  | .hbm, ⟨21, _⟩ => ⟨S_, .i32⟩
  | .hbm, ⟨22, _⟩ => ⟨S640000x1, .i32⟩
  | .hbm, ⟨23, _⟩ => ⟨S640000x1, .i1⟩
  | .hbm, ⟨24, _⟩ => ⟨S1x1, .i32⟩
  | .hbm, ⟨25, _⟩ => ⟨S640000x1, .i32⟩
  | .hbm, ⟨26, _⟩ => ⟨S640000x1, .i1⟩
  | .hbm, ⟨27, _⟩ => ⟨S640000x1, .i1⟩
  | .hbm, ⟨28, _⟩ => ⟨S_, .i1⟩
  | .hbm, ⟨29, _⟩ => ⟨S640000, .i1⟩
  | .hbm, ⟨30, _⟩ => ⟨S640000x128, .f32⟩
  | .hbm, ⟨31, _⟩ => ⟨S640000x128, .i1⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S_, .f32⟩
  | .hbm, ⟨36, _⟩ => ⟨S40000x128, .f32⟩
  | .hbm, ⟨37, _⟩ => ⟨S640000x1, .i32⟩
  | .hbm, ⟨38, _⟩ => ⟨S40000x128, .f32⟩
  | .hbm, ⟨39, _⟩ => ⟨S_, .f32⟩
  | .hbm, ⟨40, _⟩ => ⟨S640000, .f32⟩
  | .hbm, ⟨41, _⟩ => ⟨S_, .f32⟩
  | .hbm, ⟨42, _⟩ => ⟨S40000, .f32⟩
  | .hbm, ⟨43, _⟩ => ⟨S640000x1, .i32⟩
  | .hbm, ⟨44, _⟩ => ⟨S40000, .f32⟩
  | .hbm, ⟨45, _⟩ => ⟨S_, .f32⟩
  | .hbm, ⟨46, _⟩ => ⟨S40000, .f32⟩
  | .hbm, ⟨47, _⟩ => ⟨S40000, .i1⟩
  | .hbm, ⟨48, _⟩ => ⟨S40000x1, .i1⟩
  | .hbm, ⟨49, _⟩ => ⟨S40000x128, .i1⟩
  | .hbm, ⟨50, _⟩ => ⟨S40000x128, .f32⟩
  | .hbm, ⟨51, _⟩ => ⟨S128x128, .f32⟩
  | .hbm, ⟨52, _⟩ => ⟨S128x128, .f32⟩
  | .hbm, ⟨53, _⟩ => ⟨S1x128, .f32⟩
  | .hbm, ⟨54, _⟩ => ⟨S1x128, .f32⟩
  | .hbm, ⟨55, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_cst : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst_0 : Ref sig .tc := ⟨.hbm, 39, rfl⟩
abbrev main_v6 : Ref sig .tc := ⟨.hbm, 40, rfl⟩
abbrev main_cst_1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_2 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_call1_v0 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  slices_S256x128_S128x128_0_0 : S256x128.Slices ![0, 0] S128x128
  slices_S256x128_S128x128_128_0 : S256x128.Slices ![128, 0] S128x128
  shapeCasts_S4000x128_S4000x128 : S4000x128.ShapeCasts S4000x128
  shapeCasts_S128x128_S128x128 : S128x128.ShapeCasts S128x128
  dot_S4000x128_S128x128_S4000x128_1_0_0_1_n_n_wf : DotDims.WF S4000x128 S128x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .f32 = 32 ∨ (Rect.block (s := S40000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S40000x128.size a
  hwx1_7 : ∀ i : grid1.Coords, EltTy.bits .f32 = 32 ∨ (Rect.block (s := S40000x128) S4000x128.size (cc1_transform_7 i) (hinb1_7 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x128 : Shape := ⟨2, ![40000, 128]⟩
abbrev S128x128 : Shape := ⟨2, ![128, 128]⟩
abbrev S128 : Shape := ⟨1, ![128]⟩
abbrev S256x128 : Shape := ⟨2, ![256, 128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S40000 : Shape := ⟨1, ![40000]⟩
abbrev S40000x1 : Shape := ⟨2, ![40000, 1]⟩
abbrev S40000x256 : Shape := ⟨2, ![40000, 256]⟩

abbrev nBuf : Space → Nat
  | .hbm => 54
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x128, .f32⟩
  | .hbm, ⟨20, _⟩ => ⟨S1x128, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S640000x128, .f32⟩
  | .hbm, ⟨25, _⟩ => ⟨S640000x128, .f32⟩
  | .hbm, ⟨26, _⟩ => ⟨S_, .f32⟩
  | .hbm, ⟨27, _⟩ => ⟨S40000x128, .f32⟩
  | .hbm, ⟨28, _⟩ => ⟨S640000x1, .i32⟩
  | .hbm, ⟨29, _⟩ => ⟨S40000x128, .f32⟩
  | .hbm, ⟨30, _⟩ => ⟨S_, .f32⟩
  | .hbm, ⟨31, _⟩ => ⟨S640000, .f32⟩
  | .hbm, ⟨32, _⟩ => ⟨S_, .f32⟩
  | .hbm, ⟨33, _⟩ => ⟨S40000, .f32⟩
  | .hbm, ⟨34, _⟩ => ⟨S640000x1, .i32⟩
  | .hbm, ⟨35, _⟩ => ⟨S40000, .f32⟩
  | .hbm, ⟨36, _⟩ => ⟨S_, .f32⟩
  | .hbm, ⟨37, _⟩ => ⟨S40000, .f32⟩
  | .hbm, ⟨38, _⟩ => ⟨S40000, .i1⟩
  | .hbm, ⟨39, _⟩ => ⟨S40000x1, .i1⟩
  | .hbm, ⟨40, _⟩ => ⟨S40000x128, .i1⟩
  | .hbm, ⟨41, _⟩ => ⟨S40000x128, .f32⟩
  | .hbm, ⟨42, _⟩ => ⟨S40000x256, .f32⟩
  | .hbm, ⟨43, _⟩ => ⟨S40000x128, .f32⟩
  | .hbm, ⟨44, _⟩ => ⟨S1x128, .f32⟩
  | .hbm, ⟨45, _⟩ => ⟨S40000x128, .f32⟩
  | .hbm, ⟨46, _⟩ => ⟨S40000x128, .f32⟩
  | .hbm, ⟨47, _⟩ => ⟨S_, .f32⟩
  | .hbm, ⟨48, _⟩ => ⟨S40000x128, .f32⟩
  | .hbm, ⟨49, _⟩ => ⟨S40000x128, .f32⟩
  | .hbm, ⟨50, _⟩ => ⟨S40000x128, .f32⟩
  | .hbm, ⟨51, _⟩ => ⟨S1x128, .f32⟩
  | .hbm, ⟨52, _⟩ => ⟨S40000x128, .f32⟩
  | .hbm, ⟨53, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call2_cst : Ref sig .tc := ⟨.hbm, 47, rfl⟩
abbrev main_call2_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.PreRange.lean ====
/-
  What the precondition says of the source indices: when the printed predicate is all ones, every source index,
  read signed, lies in [0, 40000) — the last conjunct of the predicate is the and-reduction over all edges of
  (0 ≤ src) ∧ (src < 40000).
-/
import proofs.«404860_j34686155882688_1_alg».proof.Pre_finite_inputs
import Idealize.ShloMosaic.Lib.ReduceAll
import Idealize.ShloMosaic.Lib.Affine
import Idealize.ShloMosaic.Lib.ValueIdx

noncomputable section

namespace Cert.Pre_finite_inputs.Range

open Idealize.ShloMosaic Cert.Pre_finite_inputs

instance : Subsingleton S_.Idx := ⟨fun a b => funext fun d => d.elim0⟩

variable {F : FTy → Type} [FloatOps F] [Cert.Pre_finite_inputs.Facts]

/-- The broadcast of a scalar word reads that word everywhere. -/
theorem splat_apply (v : BitVec 32) (e : S640000.Idx) :
    broadcastInDim S640000 ![] Facts.bcast_S_S640000 (constantI S_ 32 v) e = v := rfl

/-- Under the precondition every source index is a row number. -/
theorem src_in_range (a0 a1 : FVec F S40000x128 .f32) (a2 : FVec F S128x128 .f32) (a3 : FVec F S128 .f32)
    (a4 : FVec F S256x128 .f32) (a5 : FVec F S128 .f32) (a6 : FVec F S128x128 .f32) (a7 : FVec F S128 .f32)
    (a8 a9 : IVec S640000 32)
    (h : fn (F := F) a0 a1 a2 a3 a4 a5 a6 a7 a8 a9 = fun _ => 1#1) (e : S640000.Idx) :
    0 ≤ (a8 e).toInt ∧ (a8 e).toInt < 40000 := by
  have h0 := congrFun h ValueIdx.ix0
  unfold fn at h0
  dsimp only at h0
  unfold fn_part1 at h0
  dsimp only at h0
  unfold fn_part2 at h0
  dsimp only at h0
  obtain ⟨-, h44⟩ := IntOp.andi_eq_one.1 h0
  have he := Host.reduce_andi_all _ _ _ _ _ h44 e
  obtain ⟨hge, hlt⟩ := IntOp.andi_eq_one.1 he
  have h1 := IntOp.cmpi_sge.1 hge
  have h2 := IntOp.cmpi_slt.1 hlt
  rw [splat_apply] at h1 h2
  exact ⟨by simpa using h1, by simpa using h2⟩

end Cert.Pre_finite_inputs.Range

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.KernelFold.lean ====
/-
  The kernel program's host operations read back: what each buffer the two regions are entered with holds, as a
  function of the launch memory — the arguments untouched, the bias rows and the weight halves re-laid, the gathered
  messages a function of the projection's result array, the aggregated array a function of the messages.
-/
import proofs.«404860_j34686155882688_1_alg».proof.Proof.Gen.KernelIdeal.Frame
import proofs.«404860_j34686155882688_1_alg».proof.Proof.LibTRef
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.StableHlo
open Idealize.ShloMosaic.ValueIdx

namespace Cert.KernelIdeal.Fold

open Cert.KernelIdeal Cert.KernelIdeal.Gen

/-! ## The host operations as functions -/

/-- The source indices wrapped (the row count added to a negative one), as the column the gather reads. -/
def wrapped (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 40000#32))) src)

/-- The range test of the wrapped indices, edge by edge: 0 ≤ index ≤ 39999. -/
def inRange (src : IVec S640000 32) : IVec S640000 1 :=
  Host.reduce IntOp.andi
    (andi (cmpi .sge (wrapped src) (broadcastInDim S640000x1 ![] bcast_S_S640000x1 (constantI S_ 32 0#32)))
      (cmpi .sle (wrapped src) (broadcastInDim S640000x1 ![0, 1] bcast_S1x1_S640000x1_0_1
        (broadcastInDim S1x1 ![1] bcast_S1_S1x1_1 (constantI S1 32 39999#32)))))
    (constantI S_ 1 1#1) reducesTo_S640000x1_S640000_d1 h_S_

variable {F : FTy → Type} [FloatOps F]

/-- The row gather with its fill: row `e` of the result is the table's row at the wrapped index where the range test
    holds, the fill pattern elsewhere. -/
def take (y : FVec F S40000x128 .f32) (src : IVec S640000 32) : FVec F S640000x128 .f32 :=
  select (broadcastInDim S640000x128 ![0] bcast_S640000_S640000x128_0 (inRange src))
    (Host.gather gather_S40000x128_S640000x1_S640000x128_1_0_n_n_0_1_1128 y (wrapped src))
    (broadcastInDim S640000x128 ![] bcast_S_S640000x128 (constant S_ .f32 0x7FC00000#32))

/-- The aggregation: the messages summed into their destination rows; a row no edge points at keeps its initial value. -/
def aggregate (msg : FVec F S640000x128 .f32) (dst : IVec S640000 32) (zinit : FVec F S40000x128 .f32) : FVec F S40000x128 .f32 :=
  select (broadcastInDim S40000x128 ![0, 1] bcast_S40000x1_S40000x128_0_1
      (broadcastInDim S40000x1 ![0] bcast_S40000_S40000x1_0
        (cmpf (F := F) .ogt
          (Host.scatterAdd scatter_S40000_S640000x1_S640000_n_0_0_1 (broadcastInDim S40000 ![] bcast_S_S40000 (constant S_ .f32 0x00000000#32))
            (broadcastInDim S640000x1 ![0] bcast_S640000_S640000x1_0 dst) (broadcastInDim S640000 ![] bcast_S_S640000 (constant S_ .f32 0x3F800000#32)))
          (broadcastInDim S40000 ![] bcast_S_S40000 (constant S_ .f32 0x00000000#32)))))
    (Host.scatterAdd scatter_S40000x128_S640000x1_S640000x128_1_0_0_1 (broadcastInDim S40000x128 ![] bcast_S_S40000x128 (constant S_ .f32 0x00000000#32))
      (broadcastInDim S640000x1 ![0] bcast_S640000_S640000x1_0 dst) msg)
    zinit

variable (m : (ℓ : Loc nD τ sig) → Buf (Elt F) ℓ) (ρ : Dev nD → PrngReg)

/-! ## Before and inside the first region -/

theorem W1_arg0 (c : Dev nD) : W1 m ρ c (Proc.devRef .tc main_arg0) = m ((c : Thread nD τ).loc main_arg0) := by
  show StableHlo.after (hostOps0 (F := F)) (W0 m ρ c) (Proc.devRef .tc main_arg0) = _
  after_results
theorem W1_arg2 (c : Dev nD) : W1 m ρ c (Proc.devRef .tc main_arg2) = m ((c : Thread nD τ).loc main_arg2) := by
  show StableHlo.after (hostOps0 (F := F)) (W0 m ρ c) (Proc.devRef .tc main_arg2) = _
  after_results
/-- The first bias row: the bias vector cast to one row. -/
theorem W1_v0 (c : Dev nD) : W1 m ρ c (Proc.devRef .tc main_v0)
    = shapeCast S1x128 (m ((c : Thread nD τ).loc main_arg3) : FVec F S128 .f32) shapeCasts_S128_S1x128 := by
  show StableHlo.after (hostOps0 (F := F)) (W0 m ρ c) (Proc.devRef .tc main_v0) = _
  after_results
  rfl

/-! ## After the first region: the arguments -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) := by
  rw [W2_of_ne m ρ c main_arg1 (by decide)]
  show StableHlo.after (hostOps0 (F := F)) (W0 m ρ c) (Proc.devRef .tc main_arg1) = _
  after_results
theorem W2_arg4 (c : Dev nD) : W2 m ρ c (Proc.devRef .tc main_arg4) = m ((c : Thread nD τ).loc main_arg4) := by
  rw [W2_of_ne m ρ c main_arg4 (by decide)]
  show StableHlo.after (hostOps0 (F := F)) (W0 m ρ c) (Proc.devRef .tc main_arg4) = _
  after_results
theorem W2_arg5 (c : Dev nD) : W2 m ρ c (Proc.devRef .tc main_arg5) = m ((c : Thread nD τ).loc main_arg5) := by
  rw [W2_of_ne m ρ c main_arg5 (by decide)]
  show StableHlo.after (hostOps0 (F := F)) (W0 m ρ c) (Proc.devRef .tc main_arg5) = _
  after_results
theorem W2_arg6 (c : Dev nD) : W2 m ρ c (Proc.devRef .tc main_arg6) = m ((c : Thread nD τ).loc main_arg6) := by
  rw [W2_of_ne m ρ c main_arg6 (by decide)]
  show StableHlo.after (hostOps0 (F := F)) (W0 m ρ c) (Proc.devRef .tc main_arg6) = _
  after_results
theorem W2_arg7 (c : Dev nD) : W2 m ρ c (Proc.devRef .tc main_arg7) = m ((c : Thread nD τ).loc main_arg7) := by
  rw [W2_of_ne m ρ c main_arg7 (by decide)]
  show StableHlo.after (hostOps0 (F := F)) (W0 m ρ c) (Proc.devRef .tc main_arg7) = _
  after_results
theorem W2_arg8 (c : Dev nD) : W2 m ρ c (Proc.devRef .tc main_arg8) = m ((c : Thread nD τ).loc main_arg8) := by
  rw [W2_of_ne m ρ c main_arg8 (by decide)]
  show StableHlo.after (hostOps0 (F := F)) (W0 m ρ c) (Proc.devRef .tc main_arg8) = _
  after_results
theorem W2_arg9 (c : Dev nD) : W2 m ρ c (Proc.devRef .tc main_arg9) = m ((c : Thread nD τ).loc main_arg9) := by
  rw [W2_of_ne m ρ c main_arg9 (by decide)]
  show StableHlo.after (hostOps0 (F := F)) (W0 m ρ c) (Proc.devRef .tc main_arg9) = _
  after_results

/-! ## Between the regions -/

set_option maxHeartbeats 2000000 in
/-- The gathered messages: the take of the projection's result array at the source indices. -/
theorem W3_v2 (c : Dev nD) : W3 m ρ c (Proc.devRef .tc main_v2)
    = take (W2 m ρ c (Proc.devRef .tc main_v1) : FVec F S40000x128 .f32) (m ((c : Thread nD τ).loc main_arg8) : IVec S640000 32) := by
  show StableHlo.after (hostOps1 (F := F)) (W2 m ρ c) (Proc.devRef .tc main_v2) = _
  after_results_simp
  simp only [TRef.ofBuf_toBuf]
  simp only [TRef.ofBuf, TRef.toBuf, cast_eq]
  rw [W2_arg8 m ρ c]
  rfl

set_option maxHeartbeats 4000000 in
/-- The aggregated array the second region is entered with. -/
theorem W6_v13 (c : Dev nD) : W6 m ρ c (Proc.devRef .tc main_v13)
    = aggregate (W3 m ρ c (Proc.devRef .tc main_v2) : FVec F S640000x128 .f32) (m ((c : Thread nD τ).loc main_arg9) : IVec S640000 32)
        (m ((c : Thread nD τ).loc main_arg1) : FVec F S40000x128 .f32) := by
  rw [W3_v2 m ρ c]
  show StableHlo.after (hostOps1_3 (F := F)) (StableHlo.after (hostOps1_2 (F := F)) (StableHlo.after (hostOps1_1 (F := F)) (StableHlo.after (hostOps1 (F := F)) (W2 m ρ c)))) (Proc.devRef .tc main_v13) = _
  after_results_simp
  simp only [TRef.ofBuf_toBuf]
  simp only [TRef.ofBuf, TRef.toBuf, cast_eq]
  rw [W2_arg8 m ρ c, W2_arg9 m ρ c, W2_arg1 m ρ c]
  rfl

theorem W6_arg0 (c : Dev nD) : W6 m ρ c (Proc.devRef .tc main_arg0) = m ((c : Thread nD τ).loc main_arg0) := by
  show StableHlo.after (hostOps1_3 (F := F)) (StableHlo.after (hostOps1_2 (F := F)) (StableHlo.after (hostOps1_1 (F := F)) (StableHlo.after (hostOps1 (F := F)) (W2 m ρ c)))) (Proc.devRef .tc main_arg0) = _
  after_results_simp
  exact W2_arg0 m ρ c
theorem W6_arg6 (c : Dev nD) : W6 m ρ c (Proc.devRef .tc main_arg6) = m ((c : Thread nD τ).loc main_arg6) := by
  show StableHlo.after (hostOps1_3 (F := F)) (StableHlo.after (hostOps1_2 (F := F)) (StableHlo.after (hostOps1_1 (F := F)) (StableHlo.after (hostOps1 (F := F)) (W2 m ρ c)))) (Proc.devRef .tc main_arg6) = _
  after_results_simp
  exact W2_arg6 m ρ c
/-- The two halves of the first update weight. -/
theorem W6_v14 (c : Dev nD) : W6 m ρ c (Proc.devRef .tc main_v14)
    = extractStridedSlice S128x128 ![0, 0] (m ((c : Thread nD τ).loc main_arg4) : FVec F S256x128 .f32) slices_S256x128_S128x128_0_0 := by
  show StableHlo.after (hostOps1_3 (F := F)) (W5 m ρ c) (Proc.devRef .tc main_v14) = _
  after_results
  rw [W2_arg4 m ρ c]
theorem W6_v15 (c : Dev nD) : W6 m ρ c (Proc.devRef .tc main_v15)
    = extractStridedSlice S128x128 ![128, 0] (m ((c : Thread nD τ).loc main_arg4) : FVec F S256x128 .f32) slices_S256x128_S128x128_128_0 := by
  show StableHlo.after (hostOps1_3 (F := F)) (W5 m ρ c) (Proc.devRef .tc main_v15) = _
  after_results
  rw [W2_arg4 m ρ c]
/-- The two update bias rows. -/
theorem W6_v16 (c : Dev nD) : W6 m ρ c (Proc.devRef .tc main_v16)
    = shapeCast S1x128 (m ((c : Thread nD τ).loc main_arg5) : FVec F S128 .f32) shapeCasts_S128_S1x128 := by
  show StableHlo.after (hostOps1_3 (F := F)) (W5 m ρ c) (Proc.devRef .tc main_v16) = _
  after_results
  rw [W2_arg5 m ρ c]
  rfl
theorem W6_v17 (c : Dev nD) : W6 m ρ c (Proc.devRef .tc main_v17)
    = shapeCast S1x128 (m ((c : Thread nD τ).loc main_arg7) : FVec F S128 .f32) shapeCasts_S128_S1x128 := by
  show StableHlo.after (hostOps1_3 (F := F)) (W5 m ρ c) (Proc.devRef .tc main_v17) = _
  after_results
  rw [W2_arg7 m ρ c]
  rfl

end Cert.KernelIdeal.Fold

end
-- ==== Proof.Spec.lean ====
/-
  The two dense stages of the message-passing layer, as functions of whole arrays at the extended reals, and the two
  facts about them the proof uses: a row of the result depends only on that row of the inputs, and a contraction over a
  concatenated axis is the sum of the contractions over its two halves.
-/
import Idealize.ShloMosaic.Lib.ValueIdx
import Idealize.ShloMosaic.PureOps.Ideal.Laws

noncomputable section

open scoped BigOperators

namespace Cert.Layer

open Idealize.ShloMosaic Idealize.ShloMosaic.ValueIdx

/-- A matrix of extended reals with `r` rows and `c` columns. -/
abbrev Mat (r c : Nat) := (⟨2, ![r, c]⟩ : Shape).Idx → EReal

/-- The floor both programs take their maximum with: the pattern of the float zero. -/
abbrev floor0 : EReal := Ideal.ofBits .f32 0x00000000#32

/-- The projection with its floor at zero: entry (n, j) is max(Σ_k x[n,k]·w[k,j] + b[j], 0). -/
def project {N K D : Nat} (x : Mat N K) (w : Mat K D) (b : Fin D → EReal) : Mat N D :=
  fun i => max ((∑ k : Fin K, x (ix2 (i 0) k) * w (ix2 k (i 1))) + b (i 1)) floor0

/-- The node update: a hidden layer fed by the node's own row and its aggregated row, floored at zero, then a second
    affine map: entry (n, j) is Σ_k max(Σ_l x[n,l]·wa[l,k] + Σ_l z[n,l]·wb[l,k] + b1[k], 0)·w2[k,j] + b2[j]. -/
def update {N K H D : Nat} (x z : Mat N K) (wa wb : Mat K H) (b1 : Fin H → EReal) (w2 : Mat H D) (b2 : Fin D → EReal) :
    Mat N D :=
  fun i => (∑ k : Fin H,
      max (((∑ l : Fin K, x (ix2 (i 0) l) * wa (ix2 l k)) + (∑ l : Fin K, z (ix2 (i 0) l) * wb (ix2 l k))) + b1 k) floor0
        * w2 (ix2 k (i 1))) + b2 (i 1)

theorem project_apply {N K D : Nat} (x : Mat N K) (w : Mat K D) (b : Fin D → EReal) (n : Fin N) (j : Fin D) :
    project x w b (ix2 n j) = max ((∑ k : Fin K, x (ix2 n k) * w (ix2 k j)) + b j) floor0 := rfl

theorem update_apply {N K H D : Nat} (x z : Mat N K) (wa wb : Mat K H) (b1 : Fin H → EReal) (w2 : Mat H D)
    (b2 : Fin D → EReal) (n : Fin N) (j : Fin D) :
    update x z wa wb b1 w2 b2 (ix2 n j) = (∑ k : Fin H,
      max (((∑ l : Fin K, x (ix2 n l) * wa (ix2 l k)) + (∑ l : Fin K, z (ix2 n l) * wb (ix2 l k))) + b1 k) floor0
        * w2 (ix2 k j)) + b2 j := rfl

/-- Row `p` of the projection of one matrix is row `r` of the projection of another whose row `r` is that row. -/
theorem project_row {N N' K D : Nat} (x : Mat N K) (x' : Mat N' K) (w : Mat K D) (b : Fin D → EReal) (p : Fin N')
    (r : Fin N) (hx : ∀ k, x' (ix2 p k) = x (ix2 r k)) (j : Fin D) :
    project x' w b (ix2 p j) = project x w b (ix2 r j) := by
  rw [project_apply, project_apply]
  simp only [hx]

/-- The same for the node update, in both of its row inputs. -/
theorem update_row {N N' K H D : Nat} (x z : Mat N K) (x' z' : Mat N' K) (wa wb : Mat K H) (b1 : Fin H → EReal)
    (w2 : Mat H D) (b2 : Fin D → EReal) (p : Fin N') (r : Fin N) (hx : ∀ l, x' (ix2 p l) = x (ix2 r l))
    (hz : ∀ l, z' (ix2 p l) = z (ix2 r l)) (j : Fin D) :
    update x' z' wa wb b1 w2 b2 (ix2 p j) = update x z wa wb b1 w2 b2 (ix2 r j) := by
  rw [update_apply, update_apply]
  simp only [hx, hz]

/-- The first K rows of a matrix of K + K rows, and its last K rows. -/
def topRows {K H : Nat} (w : Mat (K + K) H) : Mat K H := fun i => w (ix2 (Fin.castAdd K (i 0)) (i 1))
def botRows {K H : Nat} (w : Mat (K + K) H) : Mat K H := fun i => w (ix2 (Fin.natAdd K (i 0)) (i 1))

theorem topRows_apply {K H : Nat} (w : Mat (K + K) H) (l : Fin K) (k : Fin H) :
    topRows w (ix2 l k) = w (ix2 (Fin.castAdd K l) k) := rfl
theorem botRows_apply {K H : Nat} (w : Mat (K + K) H) (l : Fin K) (k : Fin H) :
    botRows w (ix2 l k) = w (ix2 (Fin.natAdd K l) k) := rfl

/-- A sum over a range of length K + K is the sum over its first K terms plus the sum over its last K. -/
theorem sum_two_halves {K : Nat} (f : Fin (K + K) → EReal) :
    ∑ l : Fin (K + K), f l = (∑ l : Fin K, f (Fin.castAdd K l)) + ∑ l : Fin K, f (Fin.natAdd K l) :=
  Fin.sum_univ_add f

end Cert.Layer

end
-- ==== Proof.Region0.lean ====
/-
  The projection kernel's result array: after its ten grid points the output array holds, at every index, the
  projection (with its floor at zero) of the three arrays the region was entered with.
-/
import proofs.«404860_j34686155882688_1_alg».proof.Proof.Gen.KernelIdeal.Frame
import proofs.«404860_j34686155882688_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Project

open Cert.KernelIdeal Cert.KernelIdeal.Gen Cert.Layer

theorem hz : (![0, 0] : Fin 2 → Nat) = fun _ => 0 := funext fun a => by fin_cases a <;> rfl

/-! ## The matrix unit's product at an index -/

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block's product with a weight matrix into the zero accumulator, at entry (p, q): the sum over the 128 shared
    coordinates of the products. The element formats of the operands do not matter at the extended reals. -/
theorem product_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row, cast to its own shape and broadcast down the block's rows, reads the row's entry of the column. -/
theorem bias_apply (b : FVec Ideal S1x128 .f32) (p : Fin 4000) (q : Fin 128) :
    broadcastTo S4000x128 (shapeCast S1x128 b shapeCasts_S1x128_S1x128) broadcasts_S1x128_S4000x128 (ix2 p q) = b (ix2 0 q) := by
  rw [shapeCast_self]
  refine broadcastTo_apply b broadcasts_S1x128_S4000x128 (ix2 p q) (ix2 0 q) fun a => ?_
  match a with
  | ⟨0, _⟩ => rfl
  | ⟨1, _⟩ => rfl

/-- What the body stores, at entry (p, q) of the block: the projection of the block's rows. -/
theorem payload_apply (x0 : Vec Ideal S4000x128 .f32) (x1 : Vec Ideal S128x128 .f32) (x2 : Vec Ideal S1x128 .f32)
    (p : Fin 4000) (q : Fin 128) :
    k0_pay1 x0 x1 x2 (ix2 p q) = project x0 x1 (fun j => x2 (ix2 0 j)) (ix2 p q) := by
  unfold k0_pay1
  rw [project_apply, maximumf_apply, addf_apply, product_apply, bias_apply]
  rfl

/-! ## The blocks -/

variable (V : (c : Dev nD) → (b : Ref sig .tc) → Buf (Elt Ideal) ((c : Thread nD τ).loc b))

/-- Where the windows' blocks sit at point `t`: the row windows at block `t`, the weights and the bias whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row window's block at point `t` holds rows 4000·t … 4000·t + 3999 of the node features. -/
theorem rows_apply (c : Dev nD) (t : Fin cfg0.N) (p : Fin 4000) (k : Fin 128) (r : Fin 40000) (hr : r.val = 4000 * t.val + p.val) :
    (iblk0 V c 0 t : Vec Ideal S4000x128 .f32) (ix2 p k) = (V c main_arg0 : S40000x128.Idx → EReal) (ix2 r k) := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 4000 + 1 * p.val = r.val; rw [e0, hr]; omega
  | ⟨1, _⟩ => show win0_0.index t 1 * 128 + 1 * k.val = k.val; rw [e1]; omega

/-- The weight window's block is the weight matrix at every point. -/
theorem weights_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- The bias window's block is the bias row at every point. -/
theorem biasrow_apply (c : Dev nD) (t : Fin cfg0.N) (q : Fin 128) :
    (iblk0 V c 2 t : Vec Ideal S1x128 .f32) (ix2 0 q) = (V c main_v0 : S1x128.Idx → EReal) (ix2 0 q) := by
  obtain ⟨-, -, -, -, e0, e1, -⟩ := index_facts t
  unfold iblk0
  rw [View.read_apply]
  show V c main_v0 _ = V c main_v0 _
  congr 1
  funext a
  apply Fin.ext
  match a with
  | ⟨0, _⟩ => show win0_2.index t 0 * 1 + 1 * 0 = 0; rw [e0]
  | ⟨1, _⟩ => show win0_2.index t 1 * 128 + 1 * q.val = q.val; rw [e1]; omega

/-- The whole result: the projection of the node features as the region finds them. -/
abbrev result (c : Dev nD) : S40000x128.Idx → EReal :=
  project (V c main_arg0 : S40000x128.Idx → EReal) (V c main_arg2 : S128x128.Idx → EReal) (fun j => (V c main_v0 : S1x128.Idx → EReal) (ix2 0 j))

/-- What point `t` writes back is block `t` of the whole result. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S1x128) hz]
  obtain ⟨-, -, -, -, -, -, e0, e1⟩ := index_facts t
  funext j
  obtain ⟨p, q, rfl⟩ : ∃ (p : Fin 4000) (q : Fin 128), j = ix2 p q := ⟨j 0, j 1, eq_ix2 j⟩
  have hlt : 4000 * t.val + p.val < 40000 := by have := t.isLt; have : cfg0.N = 10 := N_0; have := p.isLt; omega
  rw [View.read_apply]
  have hemb : ((cfg0.win 3).blk t).view.emb (ix2 p q) = (ix2 (⟨4000 * t.val + p.val, hlt⟩ : Fin 40000) q : S40000x128.Idx) := by
    funext a
    apply Fin.ext
    match a with
    | ⟨0, _⟩ => show win0_3.index t 0 * 4000 + 1 * p.val = 4000 * t.val + p.val; rw [e0]; omega
    | ⟨1, _⟩ => show win0_3.index t 1 * 128 + 1 * q.val = q.val; rw [e1]; omega
  show k0_pay1 (iblk0 V c 0 t) (iblk0 V c 1 t) (iblk0 V c 2 t) (ix2 p q) = result V c (((cfg0.win 3).blk t).view.emb (ix2 p q))
  rw [hemb]
  refine (payload_apply (iblk0 V c 0 t) (iblk0 V c 1 t) (iblk0 V c 2 t) p q).trans ?_
  unfold result
  rw [project_apply, project_apply]
  simp only [rows_apply V c t p _ ⟨4000 * t.val + p.val, hlt⟩ rfl, weights_apply, biasrow_apply]

/-- An index of the result array is in point `t`'s block iff each coordinate is in the block's range on its axis. -/
theorem mem_blk (t : Fin cfg0.N) (i : S40000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v1).slice (win0_3.rect t)).set ↔ _
  rw [View.set_slice_whole, Rect.mem_set_unit]
  exact Iff.rfl

/-- Every row of the result array is written back by the point that holds its block of 4000 rows. -/
theorem cover (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  have hN : cfg0.N = 10 := N_0
  have hlt : (i 0).val / 4000 < cfg0.N := by rw [hN]; omega
  obtain ⟨-, -, -, -, -, -, e0, e1⟩ := index_facts ⟨(i 0).val / 4000, hlt⟩
  have e0' : win0_3.index ⟨(i 0).val / 4000, hlt⟩ 0 = (i 0).val / 4000 := e0
  refine ⟨⟨(i 0).val / 4000, hlt⟩, flush0_3 _, ?_⟩
  rw [mem_blk]
  intro a
  match a with
  | ⟨0, _⟩ =>
    show win0_3.index ⟨(i 0).val / 4000, hlt⟩ 0 * 4000 ≤ (i 0).val ∧ (i 0).val < win0_3.index ⟨(i 0).val / 4000, hlt⟩ 0 * 4000 + 4000
    rw [e0']; omega
  | ⟨1, _⟩ =>
    show win0_3.index ⟨(i 0).val / 4000, hlt⟩ 1 * 128 ≤ (i 1).val ∧ (i 1).val < win0_3.index ⟨(i 0).val / 4000, hlt⟩ 1 * 128 + 128
    rw [e1]; omega

/-- The result array after the region: the projection of the arrays the region was entered with. -/
theorem final (c : Dev nD) : (dat0 V c).arrAt 3 cfg0.N = result V c :=
  (dat0 V c).arrAt_eq_of_cover 3 (result V c) (fun t _ => flushed_eq V c t) cover

end Cert.KernelIdeal.Project

end
-- ==== Proof.Region1.lean ====
/-
  The node-update kernel's result array: after its ten grid points the output array holds, at every index, the node
  update of the seven arrays the region was entered with.
-/
import proofs.«404860_j34686155882688_1_alg».proof.Proof.Region0

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Update

open Cert.KernelIdeal Cert.KernelIdeal.Gen Cert.Layer Cert.KernelIdeal.Project

/-- A bias row broadcast down the block's rows reads the row's entry of the column. -/
theorem row_apply (b : FVec Ideal S1x128 .f32) (p : Fin 4000) (q : Fin 128) :
    broadcastTo S4000x128 b broadcasts_S1x128_S4000x128 (ix2 p q) = b (ix2 0 q) := by
  refine broadcastTo_apply b broadcasts_S1x128_S4000x128 (ix2 p q) (ix2 0 q) fun a => ?_
  match a with
  | ⟨0, _⟩ => rfl
  | ⟨1, _⟩ => rfl

/-- What the body stores, at entry (p, q) of the block: the node update of the block's rows. -/
theorem payload_apply (x z : Vec Ideal S4000x128 .f32) (wa wb : Vec Ideal S128x128 .f32) (b1 : Vec Ideal S1x128 .f32)
    (w2 : Vec Ideal S128x128 .f32) (b2 : Vec Ideal S1x128 .f32) (p : Fin 4000) (q : Fin 128) :
    k1_pay1 x z wa wb b1 w2 b2 (ix2 p q)
      = update x z wa wb (fun k => b1 (ix2 0 k)) w2 (fun j => b2 (ix2 0 j)) (ix2 p q) := by
  unfold k1_pay1
  simp only [shapeCast_self]
  rw [update_apply, addf_apply, product_apply, row_apply]
  refine congrArg₂ (· + ·) (Finset.sum_congr rfl fun k _ => ?_) rfl
  rw [truncf_apply, truncf_apply, maximumf_apply, addf_apply, addf_apply, product_apply, product_apply, row_apply]
  rfl

/-! ## The blocks -/

variable (V : (c : Dev nD) → (b : Ref sig .tc) → Buf (Elt Ideal) ((c : Thread nD τ).loc b))

/-- Where the windows' blocks sit at point `t`: the three row windows at block `t`, the weights and the biases whole. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The first row window's block at point `t` holds rows 4000·t … 4000·t + 3999 of the node features. -/
theorem xrows_apply (c : Dev nD) (t : Fin cfg1.N) (p : Fin 4000) (k : Fin 128) (r : Fin 40000) (hr : r.val = 4000 * t.val + p.val) :
    (iblk1 V c 0 t : Vec Ideal S4000x128 .f32) (ix2 p k) = (V c main_arg0 : S40000x128.Idx → EReal) (ix2 r k) := by
  obtain ⟨e0, e1, -⟩ := index_facts t
  unfold iblk1
  rw [View.read_apply]
  show V c main_arg0 _ = V c main_arg0 _
  congr 1
  funext a
  apply Fin.ext
  match a with
  | ⟨0, _⟩ => show win1_0.index t 0 * 4000 + 1 * p.val = r.val; rw [e0, hr]; omega
  | ⟨1, _⟩ => show win1_0.index t 1 * 128 + 1 * k.val = k.val; rw [e1]; omega

/-- The second row window's block holds the same rows of the aggregated messages. -/
theorem zrows_apply (c : Dev nD) (t : Fin cfg1.N) (p : Fin 4000) (k : Fin 128) (r : Fin 40000) (hr : r.val = 4000 * t.val + p.val) :
    (iblk1 V c 1 t : Vec Ideal S4000x128 .f32) (ix2 p k) = (V c main_v13 : S40000x128.Idx → EReal) (ix2 r k) := by
  obtain ⟨-, -, e0, e1, -⟩ := index_facts t
  unfold iblk1
  rw [View.read_apply]
  show V c main_v13 _ = V c main_v13 _
  congr 1
  funext a
  apply Fin.ext
  match a with
  | ⟨0, _⟩ => show win1_1.index t 0 * 4000 + 1 * p.val = r.val; rw [e0, hr]; omega
  | ⟨1, _⟩ => show win1_1.index t 1 * 128 + 1 * k.val = k.val; rw [e1]; omega

/-- The three weight windows' blocks are the weight matrices at every point. -/
theorem wa_apply (c : Dev nD) (t : Fin cfg1.N) (k : Fin 128) (q : Fin 128) :
    (iblk1 V c 2 t : Vec Ideal S128x128 .f32) (ix2 k q) = (V c main_v14 : S128x128.Idx → EReal) (ix2 k q) := by
  obtain ⟨-, -, -, -, e0, e1, -⟩ := index_facts t
  unfold iblk1
  rw [View.read_apply]
  show V c main_v14 _ = V c main_v14 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega
theorem wb_apply (c : Dev nD) (t : Fin cfg1.N) (k : Fin 128) (q : Fin 128) :
    (iblk1 V c 3 t : Vec Ideal S128x128 .f32) (ix2 k q) = (V c main_v15 : S128x128.Idx → EReal) (ix2 k q) := by
  obtain ⟨-, -, -, -, -, -, e0, e1, -⟩ := index_facts t
  unfold iblk1
  rw [View.read_apply]
  show V c main_v15 _ = V c main_v15 _
  congr 1
  funext a
  apply Fin.ext
  match a with
  | ⟨0, _⟩ => show win1_3.index t 0 * 128 + 1 * k.val = k.val; rw [e0]; omega
  | ⟨1, _⟩ => show win1_3.index t 1 * 128 + 1 * q.val = q.val; rw [e1]; omega
theorem w2_apply (c : Dev nD) (t : Fin cfg1.N) (k : Fin 128) (q : Fin 128) :
    (iblk1 V c 5 t : Vec Ideal S128x128 .f32) (ix2 k q) = (V c main_arg6 : S128x128.Idx → EReal) (ix2 k q) := by
  obtain ⟨-, -, -, -, -, -, -, -, -, -, e0, e1, -⟩ := index_facts t
  unfold iblk1
  rw [View.read_apply]
  show V c main_arg6 _ = V c main_arg6 _
  congr 1
  funext a
  apply Fin.ext
  match a with
  | ⟨0, _⟩ => show win1_5.index t 0 * 128 + 1 * k.val = k.val; rw [e0]; omega
  | ⟨1, _⟩ => show win1_5.index t 1 * 128 + 1 * q.val = q.val; rw [e1]; omega

/-- The two bias windows' blocks are the bias rows at every point. -/
theorem b1_apply (c : Dev nD) (t : Fin cfg1.N) (q : Fin 128) :
    (iblk1 V c 4 t : Vec Ideal S1x128 .f32) (ix2 0 q) = (V c main_v16 : S1x128.Idx → EReal) (ix2 0 q) := by
  obtain ⟨-, -, -, -, -, -, -, -, e0, e1, -⟩ := index_facts t
  unfold iblk1
  rw [View.read_apply]
  show V c main_v16 _ = V c main_v16 _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega
theorem b2_apply (c : Dev nD) (t : Fin cfg1.N) (q : Fin 128) :
    (iblk1 V c 6 t : Vec Ideal S1x128 .f32) (ix2 0 q) = (V c main_v17 : S1x128.Idx → EReal) (ix2 0 q) := by
  obtain ⟨-, -, -, -, -, -, -, -, -, -, -, -, e0, e1, -⟩ := index_facts t
  unfold iblk1
  rw [View.read_apply]
  show V c main_v17 _ = V c main_v17 _
  congr 1
  funext a
  apply Fin.ext
  match a with
  | ⟨0, _⟩ => show win1_6.index t 0 * 1 + 1 * 0 = 0; rw [e0]
  | ⟨1, _⟩ => show win1_6.index t 1 * 128 + 1 * q.val = q.val; rw [e1]; omega

/-- The whole result: the node update of the arrays as the region finds them. -/
abbrev result (c : Dev nD) : S40000x128.Idx → EReal :=
  update (V c main_arg0 : S40000x128.Idx → EReal) (V c main_v13 : S40000x128.Idx → EReal)
    (V c main_v14 : S128x128.Idx → EReal) (V c main_v15 : S128x128.Idx → EReal)
    (fun k => (V c main_v16 : S1x128.Idx → EReal) (ix2 0 k)) (V c main_arg6 : S128x128.Idx → EReal)
    (fun j => (V c main_v17 : S1x128.Idx → EReal) (ix2 0 j))

/-- What point `t` writes back is block `t` of the whole result. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S4000x128) hz, View.ld_unit_zero (S := S128x128) hz, View.ld_unit_zero (S := S1x128) hz]
  obtain ⟨-, -, -, -, -, -, -, -, -, -, -, -, -, -, e0, e1⟩ := index_facts t
  funext j
  obtain ⟨p, q, rfl⟩ : ∃ (p : Fin 4000) (q : Fin 128), j = ix2 p q := ⟨j 0, j 1, eq_ix2 j⟩
  have hlt : 4000 * t.val + p.val < 40000 := by have := t.isLt; have : cfg1.N = 10 := N_1; have := p.isLt; omega
  rw [View.read_apply]
  have hemb : ((cfg1.win 7).blk t).view.emb (ix2 p q) = (ix2 (⟨4000 * t.val + p.val, hlt⟩ : Fin 40000) q : S40000x128.Idx) := by
    funext a
    apply Fin.ext
    match a with
    | ⟨0, _⟩ => show win1_7.index t 0 * 4000 + 1 * p.val = 4000 * t.val + p.val; rw [e0]; omega
    | ⟨1, _⟩ => show win1_7.index t 1 * 128 + 1 * q.val = q.val; rw [e1]; omega
  show k1_pay1 (iblk1 V c 0 t) (iblk1 V c 1 t) (iblk1 V c 2 t) (iblk1 V c 3 t) (iblk1 V c 4 t) (iblk1 V c 5 t) (iblk1 V c 6 t) (ix2 p q) = result V c (((cfg1.win 7).blk t).view.emb (ix2 p q))
  rw [hemb]
  refine (payload_apply (iblk1 V c 0 t) (iblk1 V c 1 t) (iblk1 V c 2 t) (iblk1 V c 3 t) (iblk1 V c 4 t) (iblk1 V c 5 t) (iblk1 V c 6 t) p q).trans ?_
  unfold result
  rw [update_apply, update_apply]
  simp only [xrows_apply V c t p _ ⟨4000 * t.val + p.val, hlt⟩ rfl, zrows_apply V c t p _ ⟨4000 * t.val + p.val, hlt⟩ rfl,
    wa_apply, wb_apply, w2_apply, b1_apply, b2_apply]

/-- An index of the result array is in point `t`'s block iff each coordinate is in the block's range on its axis. -/
theorem mem_blk (t : Fin cfg1.N) (i : S40000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v18).slice (win1_7.rect t)).set ↔ _
  rw [View.set_slice_whole, Rect.mem_set_unit]
  exact Iff.rfl

/-- Every row of the result array is written back by the point that holds its block of 4000 rows. -/
theorem cover (i : S40000x128.Idx) : ∃ t : Fin cfg1.N, (cfg1.win 7).flush t = true ∧ i ∈ ((cfg1.win 7).blk t).view.set := by
  have hi0 : (i 0).val < 40000 := (i 0).isLt
  have hi1 : (i 1).val < 128 := (i 1).isLt
  have hN : cfg1.N = 10 := N_1
  have hlt : (i 0).val / 4000 < cfg1.N := by rw [hN]; omega
  obtain ⟨-, -, -, -, -, -, -, -, -, -, -, -, -, -, e0, e1⟩ := index_facts ⟨(i 0).val / 4000, hlt⟩
  have e0' : win1_7.index ⟨(i 0).val / 4000, hlt⟩ 0 = (i 0).val / 4000 := e0
  refine ⟨⟨(i 0).val / 4000, hlt⟩, flush1_7 _, ?_⟩
  rw [mem_blk]
  intro a
  match a with
  | ⟨0, _⟩ =>
    show win1_7.index ⟨(i 0).val / 4000, hlt⟩ 0 * 4000 ≤ (i 0).val ∧ (i 0).val < win1_7.index ⟨(i 0).val / 4000, hlt⟩ 0 * 4000 + 4000
    rw [e0']; omega
  | ⟨1, _⟩ =>
    show win1_7.index ⟨(i 0).val / 4000, hlt⟩ 1 * 128 ≤ (i 1).val ∧ (i 1).val < win1_7.index ⟨(i 0).val / 4000, hlt⟩ 1 * 128 + 128
    rw [e1]; omega

/-- The result array after the region: the node update of the arrays the region was entered with. -/
theorem final (c : Dev nD) : (dat1 V c).arrAt 7 cfg1.N = result V c :=
  (dat1 V c).arrAt_eq_of_cover 7 (result V c) (fun t _ => flushed_eq V c t) cover

end Cert.KernelIdeal.Update

end
-- ==== Proof.Words.lean ====
/-
  The word arithmetic of a row index that is in range: its wrap (add the row count when negative) leaves it
  alone, the range test of the wrapped index holds, and clamping it into the rows changes nothing.
-/
import Idealize.ShloMosaic.Lib.Affine
import Idealize.ShloMosaic.PureOps

namespace Cert.Layer.Words

open Idealize.ShloMosaic

theorem toInt_zero : (0#32 : BitVec 32).toInt = 0 := by decide
theorem toInt_last : (39999#32 : BitVec 32).toInt = 39999 := by decide
theorem toInt_count : (40000#32 : BitVec 32).toInt = 40000 := by decide

/-- A word in [0, 40000) is not negative, so the wrap selects the word itself. -/
theorem wrap_of_in_range (w : BitVec 32) (hlo : 0 ≤ w.toInt) :
    Scalar.select (IntOp.cmpi .slt w 0#32) (IntOp.addi w 40000#32) w = w := by
  unfold Scalar.select
  refine if_neg fun h => ?_
  have := IntOp.cmpi_slt.1 h
  rw [toInt_zero] at this
  omega

/-- A word in [0, 40000) passes the test 0 ≤ w ∧ w ≤ 39999. -/
theorem test_of_in_range (w : BitVec 32) (hlo : 0 ≤ w.toInt) (hhi : w.toInt < 40000) :
    IntOp.andi (IntOp.cmpi .sge w 0#32) (IntOp.cmpi .sle w 39999#32) = 1#1 :=
  IntOp.andi_eq_one.2 ⟨IntOp.cmpi_sge.2 (by rw [toInt_zero]; exact hlo), IntOp.cmpi_sle.2 (by rw [toInt_last]; omega)⟩

end Cert.Layer.Words
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.RefMsg.lean ====
/-
  The reference's per-edge messages read at an index: for an edge whose source index is a row number, the message is
  the projection (with its floor at zero) of that row of the node features — the row gather commutes with the dense
  layer, which acts on each row by itself.
-/
import proofs.«404860_j34686155882688_1_alg».proof.Proof.RefRead
import proofs.«404860_j34686155882688_1_alg».proof.Proof.Spec
import proofs.«404860_j34686155882688_1_alg».proof.Proof.Words
import proofs.«404860_j34686155882688_1_alg».proof.Proof.LibScatterRead
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.Messages

open Cert.ReferenceIdeal Cert.ReferenceIdeal.Gen Cert.ReferenceIdeal.PRead Cert.Layer

/-- The wrapped source index of edge `e`, as the gather reads it: the index itself when it is a row number. -/
theorem wrapped_apply (x8 : (⟨S640000, .i32⟩ : BufTy).Contents (Elt Ideal)) (e : Fin 640000)
    (hlo : 0 ≤ ((x8 : S640000.Idx → BitVec 32) (ix1 e)).toInt) :
    val_main_v5 (F := Ideal) x8 (ix2 e (0 : Fin 1)) = (x8 : S640000.Idx → BitVec 32) (ix1 e) := by
  rw [val_main_v5_apply]
  have hi : idx_main_v5 (ix2 e (0 : Fin 1)) = ix1 e := funext fun a => Fin.ext (by match a with | ⟨0, _⟩ => rfl)
  rw [hi, val_main_v4_apply, val_main_v1_apply, val_main_v3_apply, val_main_v0_apply, val_main_v2_apply, val_main_c_apply,
    val_main_c_0_apply]
  exact Words.wrap_of_in_range _ hlo

/-- The gathered row of edge `e` is the row its source index names. -/
theorem gathered_apply (x0 : (⟨S40000x128, .f32⟩ : BufTy).Contents (Elt Ideal)) (x8 : (⟨S640000, .i32⟩ : BufTy).Contents (Elt Ideal))
    (e : Fin 640000) (k : Fin 128) (hlo : 0 ≤ ((x8 : S640000.Idx → BitVec 32) (ix1 e)).toInt)
    (hhi : ((x8 : S640000.Idx → BitVec 32) (ix1 e)).toInt < 40000) :
    val_main_v6 (F := Ideal) x0 x8 (ix2 e k)
      = (x0 : S40000x128.Idx → EReal) (ix2 (⟨((x8 : S640000.Idx → BitVec 32) (ix1 e)).toInt.toNat, by omega⟩ : Fin 40000) k) := by
  unfold val_main_v6
  rw [ScatterRead.gather_rows_apply (by decide) gather_S40000x128_S640000x1_S640000x128_1_0_n_n_0_1_1128 rfl rfl rfl rfl rfl rfl rfl]
  have hw := wrapped_apply x8 e hlo
  congr 1
  funext a
  apply Fin.ext
  match a with
  | ⟨0, _⟩ =>
    show min (val_main_v5 (F := Ideal) x8 (ix2 e (0 : Fin 1))).toInt.toNat (40000 - 1) = ((x8 : S640000.Idx → BitVec 32) (ix1 e)).toInt.toNat
    rw [hw]; omega
  | ⟨1, _⟩ => rfl

/-- The message of edge `e` is the projection of its source row. -/
theorem messages_apply (x0 : (⟨S40000x128, .f32⟩ : BufTy).Contents (Elt Ideal)) (x2 : (⟨S128x128, .f32⟩ : BufTy).Contents (Elt Ideal))
    (x3 : (⟨S128, .f32⟩ : BufTy).Contents (Elt Ideal)) (x8 : (⟨S640000, .i32⟩ : BufTy).Contents (Elt Ideal))
    (e : Fin 640000) (j : Fin 128) (hlo : 0 ≤ ((x8 : S640000.Idx → BitVec 32) (ix1 e)).toInt)
    (hhi : ((x8 : S640000.Idx → BitVec 32) (ix1 e)).toInt < 40000) :
    val_main_v11 (F := Ideal) x0 x2 x3 x8 (ix2 e j)
      = project (x0 : S40000x128.Idx → EReal) (x2 : S128x128.Idx → EReal) (fun k => (x3 : S128.Idx → EReal) (ix1 k))
          (ix2 (⟨((x8 : S640000.Idx → BitVec 32) (ix1 e)).toInt.toNat, by omega⟩ : Fin 40000) j) := by
  rw [project_apply, val_main_v11_apply, val_main_v10_apply, val_main_v7_apply, val_main_v9_apply, val_main_v8_apply,
    val_main_call0_v0_apply, val_main_call0_cst_apply]
  have hb : idx_main_v8 (idx_main_v9 (ix2 e j)) = ix1 j := funext fun a => Fin.ext (by match a with | ⟨0, _⟩ => rfl)
  have hl : ∀ k : Fin 128, lidx_main_v7 (ix2 e j) k = ix2 e k := fun k => funext fun a => Fin.ext (by
    match a with
    | ⟨0, _⟩ => rfl
    | ⟨1, _⟩ => rfl)
  have hr : ∀ k : Fin 128, ridx_main_v7 (ix2 e j) k = ix2 k j := fun k => funext fun a => Fin.ext (by
    match a with
    | ⟨0, _⟩ => rfl
    | ⟨1, _⟩ => rfl)
  simp only [hb, hl, hr, gathered_apply x0 x8 e _ hlo hhi]
  rfl

end Cert.ReferenceIdeal.Messages

end
-- ==== Proof.RefTail.lean ====
/-
  The reference's last stage read at one entry. At the extended reals the stage is
  relu(concat(x, z) · W₁ + b₁) · W₂ + b₂, with x and z two arrays of 128 columns joined along the column axis and W₁ of
  256 rows. A contraction over the 256 joined columns is the contraction of x's 128 columns against the first 128 rows of
  W₁ plus the contraction of z's 128 columns against its last 128 rows (a finite sum over a range of length 128 + 128
  splits into its two halves; no finiteness is needed), so entry (n, j) of the stage is the node update of the
  specification at (n, j), with z left as the aggregated array it is.
-/
import proofs.«404860_j34686155882688_1_alg».proof.Proof.RefRead
import proofs.«404860_j34686155882688_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.Tail

open Cert.ReferenceIdeal Cert.ReferenceIdeal.Gen Cert.ReferenceIdeal.PRead Cert.Layer

/-- An index into the joined array whose column lies in the first 128 reads the left piece at that column. -/
theorem cat_left (x z : (⟨S40000x128, .f32⟩ : BufTy).Contents (Elt Ideal)) (n : Fin 40000) (k l : Fin 128) :
    concatenate S40000x256 1 [⟨S40000x128, x⟩, ⟨S40000x128, z⟩] concatenates_S40000x128_S40000x128_S40000x256_d1
        (lidx_main_v24 (ix2 n k) (Fin.castAdd 128 l)) = x (ix2 n l) := by
  refine concatenate_pair_apply_left (1 : Fin S40000x256.rank) x z _ _ rfl (ix2 n l) ?_
  intro b
  match b with
  | ⟨0, _⟩ => rfl
  | ⟨1, _⟩ => rfl

/-- An index whose column is 128 + l reads the right piece at column l. -/
theorem cat_right (x z : (⟨S40000x128, .f32⟩ : BufTy).Contents (Elt Ideal)) (n : Fin 40000) (k l : Fin 128) :
    concatenate S40000x256 1 [⟨S40000x128, x⟩, ⟨S40000x128, z⟩] concatenates_S40000x128_S40000x128_S40000x256_d1
        (lidx_main_v24 (ix2 n k) (Fin.natAdd 128 l)) = z (ix2 n l) := by
  refine concatenate_pair_apply_right (1 : Fin S40000x256.rank) x z _ _ rfl rfl (ix2 n l) ?_ ?_
  · intro b hb
    match b, hb with
    | ⟨0, _⟩, _ => rfl
    | ⟨1, _⟩, hb => exact absurd rfl hb
  · show l.val + 128 = 128 + l.val
    exact Nat.add_comm _ _

/-- The weight's index under the contraction: row l, the result's column. -/
theorem ridx24 (n : Fin 40000) (k : Fin 128) (l : Fin 256) : ridx_main_v24 (ix2 n k) l = ix2 l k :=
  funext fun a => Fin.ext (by
    match a with
    | ⟨0, _⟩ => rfl
    | ⟨1, _⟩ => rfl)

/-- The contraction over the 256 joined columns is the contraction of the node's own row against the first 128 rows of
    the weight plus the contraction of its aggregated row against the last 128. -/
theorem contract_apply (x0 x1 : (⟨S40000x128, .f32⟩ : BufTy).Contents (Elt Ideal)) (x2 : (⟨S128x128, .f32⟩ : BufTy).Contents (Elt Ideal))
    (x3 : (⟨S128, .f32⟩ : BufTy).Contents (Elt Ideal)) (x4 : (⟨S256x128, .f32⟩ : BufTy).Contents (Elt Ideal))
    (x8 x9 : (⟨S640000, .i32⟩ : BufTy).Contents (Elt Ideal)) (n : Fin 40000) (k : Fin 128) :
    val_main_v24 (F := Ideal) x0 x1 x2 x3 x4 x8 x9 (ix2 n k)
      = (∑ l : Fin 128, (x0 : S40000x128.Idx → EReal) (ix2 n l) * topRows (K := 128) (x4 : S256x128.Idx → EReal) (ix2 l k))
        + ∑ l : Fin 128, (val_main_v22 (F := Ideal) x0 x1 x2 x3 x8 x9 : S40000x128.Idx → EReal) (ix2 n l)
            * botRows (K := 128) (x4 : S256x128.Idx → EReal) (ix2 l k) := by
  rw [val_main_v24_apply]
  unfold val_main_v23
  generalize val_main_v22 (F := Ideal) x0 x1 x2 x3 x8 x9 = z
  refine (sum_two_halves (K := 128) (fun l => concatenate S40000x256 1 [⟨S40000x128, x0⟩, ⟨S40000x128, z⟩]
      concatenates_S40000x128_S40000x128_S40000x256_d1 (lidx_main_v24 (ix2 n k) l) * x4 (ridx_main_v24 (ix2 n k) l))).trans ?_
  congr 1
  · refine Finset.sum_congr rfl fun l _ => ?_
    rw [cat_left, topRows_apply]
    congr 1
    exact congrArg x4 (ridx24 n k _)
  · refine Finset.sum_congr rfl fun l _ => ?_
    rw [cat_right, botRows_apply]
    congr 1
    exact congrArg x4 (ridx24 n k _)

/-- The hidden layer at a node and a hidden unit: the two contractions and the bias, floored at zero. -/
theorem hidden_apply (x0 x1 : (⟨S40000x128, .f32⟩ : BufTy).Contents (Elt Ideal)) (x2 : (⟨S128x128, .f32⟩ : BufTy).Contents (Elt Ideal))
    (x3 : (⟨S128, .f32⟩ : BufTy).Contents (Elt Ideal)) (x4 : (⟨S256x128, .f32⟩ : BufTy).Contents (Elt Ideal))
    (x5 : (⟨S128, .f32⟩ : BufTy).Contents (Elt Ideal))
    (x8 x9 : (⟨S640000, .i32⟩ : BufTy).Contents (Elt Ideal)) (n : Fin 40000) (k : Fin 128) :
    val_main_v28 (F := Ideal) x0 x1 x2 x3 x4 x5 x8 x9 (ix2 n k)
      = max (((∑ l : Fin 128, (x0 : S40000x128.Idx → EReal) (ix2 n l) * topRows (K := 128) (x4 : S256x128.Idx → EReal) (ix2 l k))
          + ∑ l : Fin 128, (val_main_v22 (F := Ideal) x0 x1 x2 x3 x8 x9 : S40000x128.Idx → EReal) (ix2 n l)
              * botRows (K := 128) (x4 : S256x128.Idx → EReal) (ix2 l k))
          + (x5 : S128.Idx → EReal) (ix1 k)) floor0 := by
  have hb : idx_main_v25 (idx_main_v26 (ix2 n k)) = ix1 k :=
    funext fun a => Fin.ext (by
      match a with
      | ⟨0, _⟩ => rfl)
  rw [val_main_v28_apply, val_main_call2_v0_apply, val_main_call2_cst_apply, val_main_v27_apply, val_main_v26_apply,
    val_main_v25_apply, contract_apply, hb]
  rfl

theorem tail_apply (x0 x1 : (⟨S40000x128, .f32⟩ : BufTy).Contents (Elt Ideal)) (x2 : (⟨S128x128, .f32⟩ : BufTy).Contents (Elt Ideal))
    (x3 : (⟨S128, .f32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 x9 : (⟨S640000, .i32⟩ : BufTy).Contents (Elt Ideal))
    (n : Fin 40000) (j : Fin 128) :
    val_main_v32 (F := Ideal) x0 x1 x2 x3 x4 x5 x6 x7 x8 x9 (ix2 n j)
      = update (x0 : S40000x128.Idx → EReal) (val_main_v22 (F := Ideal) x0 x1 x2 x3 x8 x9 : S40000x128.Idx → EReal)
          (topRows (K := 128) (x4 : S256x128.Idx → EReal)) (botRows (K := 128) (x4 : S256x128.Idx → EReal))
          (fun k => (x5 : S128.Idx → EReal) (ix1 k)) (x6 : S128x128.Idx → EReal) (fun k => (x7 : S128.Idx → EReal) (ix1 k)) (ix2 n j) := by
  have hb : idx_main_v30 (idx_main_v31 (ix2 n j)) = ix1 j :=
    funext fun a => Fin.ext (by
      match a with
      | ⟨0, _⟩ => rfl)
  rw [update_apply, val_main_v32_apply, val_main_v29_apply, val_main_v31_apply, val_main_v30_apply, hb]
  refine congrArg (· + (x7 : S128.Idx → EReal) (ix1 j)) (Finset.sum_congr rfl fun k _ => ?_)
  have hl : lidx_main_v29 (ix2 n j) k = ix2 n k :=
    funext fun a => Fin.ext (by
      match a with
      | ⟨0, _⟩ => rfl
      | ⟨1, _⟩ => rfl)
  have hr : ridx_main_v29 (ix2 n j) k = ix2 k j :=
    funext fun a => Fin.ext (by
      match a with
      | ⟨0, _⟩ => rfl
      | ⟨1, _⟩ => rfl)
  rw [hl, hr, hidden_apply]

end Cert.ReferenceIdeal.Tail

end
-- ==== Proof.LibAllOnes.lean ====
/-
  A mask that is everywhere one selects its first branch; an `and`-reduction of ones from one is one; and the
  word arithmetic of a wrapped row index: an index in [-n, n), with n added when it is negative, lies in [0, n - 1].
-/
import Idealize.ShloMosaic.Lib.ReduceAll
import Idealize.ShloMosaic.PureOps.Reduce

namespace Idealize.ShloMosaic

namespace IntOp

/-- A left fold by `and` from one over words that are all one is one. -/
theorem foldl_andi_of_all_one {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    refine foldl_andi_of_all_one f l _ ?_ (fun n hn => hl n (List.mem_cons_of_mem _ hn))
    exact andi_eq_one.2 ⟨h, hl a List.mem_cons_self⟩

end IntOp

namespace Host

variable {s t u : Shape} {axes : List (Fin s.rank)}

/-- An `and`-reduction, started at one, of an array of ones is one at every result index. -/
theorem reduce_andi_of_all_one (x : s.Idx → BitVec 1) (init : u.Idx → BitVec 1) (h : s.ReducesTo axes t) (hu : 0 < u.numel)
    (hx : ∀ i, x i = 1#1) (hinit : ∀ k, init k = 1#1) (j : t.Idx) : Host.reduce IntOp.andi x init h hu j = 1#1 := by
  rw [Host.reduce_eq_foldl]
  exact IntOp.foldl_andi_of_all_one x _ _ (hinit _) (fun i _ => hx i)

end Host

/-- A selection under a mask that is one everywhere is its first branch. -/
theorem select_of_all_one {s : Shape} {α : Type} (c : IVec s 1) (a b : s.Idx → α) (hc : ∀ i, c i = 1#1) :
    select c a b = a := by
  funext i
  show Scalar.select (c i) (a i) (b i) = a i
  unfold Scalar.select
  exact if_pos (hc i)

/-- The wrapped index: a signed word in [-100000, 100000), with 100000 added when it is negative, is in
    [0, 99999] — the row it names, counted from the end when negative, exists. -/
theorem wrapped_index_in_range (w : BitVec 32) (hlo : -100000 ≤ w.toInt) (hhi : w.toInt < 100000) :
    0 ≤ (Scalar.select (IntOp.cmpi .slt w 0#32) (IntOp.addi w 100000#32) w).toInt
      ∧ (Scalar.select (IntOp.cmpi .slt w 0#32) (IntOp.addi w 100000#32) w).toInt ≤ 99999 := by
  unfold Scalar.select
  by_cases hneg : IntOp.cmpi .slt w 0#32 = 1
  · rw [if_pos hneg]
    have h0 : w.toInt < 0 := by
      have := IntOp.cmpi_slt.1 hneg
      simpa using this
    have hadd : (IntOp.addi w 100000#32).toInt = w.toInt + 100000 := by
      unfold IntOp.addi
      rw [BitVec.toInt_add]
      have : (100000#32 : BitVec 32).toInt = 100000 := by decide
      rw [this]
      exact Int.bmod_eq_of_le (by omega) (by omega)
    rw [hadd]
    omega
  · rw [if_neg hneg]
    have h0 : ¬ w.toInt < 0 := fun h => hneg (IntOp.cmpi_slt.2 (by simpa using h))
    omega

end Idealize.ShloMosaic
-- ==== Proof.KernelTake.lean ====
/-
  The row gather with its fill, read at one entry when every source index is a row number. The gather reads row e of the
  table at the wrapped source index (the row count added to a negative index) where the range test 0 ≤ index ≤ 39999 of
  the wrapped index holds, and a fill pattern elsewhere. A source index in [0, 40000) is not negative, so its wrap is the
  index itself; it passes the range test, so the test's and-reduction is one at every edge and the selection is its first
  branch everywhere; and clamping the index into [0, 39999] inside the gather changes nothing. Entry (e, j) is therefore
  the table's entry at row src[e], column j.
-/
import proofs.«404860_j34686155882688_1_alg».proof.Proof.KernelFold
import proofs.«404860_j34686155882688_1_alg».proof.Proof.Words
import proofs.«404860_j34686155882688_1_alg».proof.Proof.LibAllOnes
import proofs.«404860_j34686155882688_1_alg».proof.Proof.LibScatterRead
import Idealize.ShloMosaic.Lib.Pipeline.Value
import Idealize.ShloMosaic.Lib.ValueIdx

noncomputable section

open Idealize.ShloMosaic Idealize.ShloMosaic.ValueIdx

namespace Cert.KernelIdeal.Take

open Cert.KernelIdeal Cert.KernelIdeal.Gen Cert.KernelIdeal.Fold

variable {F : FTy → Type} [FloatOps F]

/-- The wrapped source index of an edge, as the gather reads it, is the index itself when it is not negative. -/
theorem wrapped_apply (src : IVec S640000 32) (e : Fin 640000)
    (hlo : 0 ≤ ((src : S640000.Idx → BitVec 32) (ix1 e)).toInt) :
    wrapped src (ix2 e (0 : Fin 1)) = (src : S640000.Idx → BitVec 32) (ix1 e) := by
  unfold wrapped
  rw [broadcastInDim_apply _ bcast_S640000_S640000x1_0 _ (ix2 e (0 : Fin 1)) (ix1 e) (fun a => match a with
    | ⟨0, _⟩ => rfl)]
  exact Cert.Layer.Words.wrap_of_in_range _ hlo

/-- When every source index is a row number, every edge passes the range test. -/
theorem inRange_apply (src : IVec S640000 32)
    (hsrc : ∀ e : Fin 640000, 0 ≤ ((src : S640000.Idx → BitVec 32) (ix1 e)).toInt ∧ ((src : S640000.Idx → BitVec 32) (ix1 e)).toInt < 40000)
    (i : S640000.Idx) : inRange src i = 1#1 := by
  unfold inRange
  refine Host.reduce_andi_of_all_one _ _ reducesTo_S640000x1_S640000_d1 h_S_ ?_ (fun _ => rfl) i
  intro q
  have hq : q = ix2 (⟨(q 0).val, (q 0).isLt⟩ : Fin 640000) (0 : Fin 1) :=
    funext fun a => Fin.ext (by
      match a with
      | ⟨0, _⟩ => rfl
      | ⟨1, _⟩ => exact Fin.val_eq_zero (q 1))
  show IntOp.andi (IntOp.cmpi .sge (wrapped src q) 0#32) (IntOp.cmpi .sle (wrapped src q) 39999#32) = 1#1
  rw [hq, wrapped_apply src _ (hsrc _).1]
  exact Cert.Layer.Words.test_of_in_range _ (hsrc _).1 (hsrc _).2

theorem take_apply (y : FVec F S40000x128 .f32) (src : IVec S640000 32)
    (hsrc : ∀ e : Fin 640000, 0 ≤ ((src : S640000.Idx → BitVec 32) (ix1 e)).toInt ∧ ((src : S640000.Idx → BitVec 32) (ix1 e)).toInt < 40000)
    (e : Fin 640000) (j : Fin 128) :
    take y src (ix2 e j)
      = (y : S40000x128.Idx → F .f32) (ix2 (⟨((src : S640000.Idx → BitVec 32) (ix1 e)).toInt.toNat, by have := hsrc e; omega⟩ : Fin 40000) j) := by
  unfold take
  rw [select_of_all_one (broadcastInDim S640000x128 ![0] bcast_S640000_S640000x128_0 (inRange src)) _ _
      (fun i => inRange_apply src hsrc _),
    ScatterRead.gather_rows_apply (by decide) gather_S40000x128_S640000x1_S640000x128_1_0_n_n_0_1_1128 rfl rfl rfl rfl rfl rfl rfl]
  congr 1
  funext a
  apply Fin.ext
  match a with
  | ⟨0, _⟩ =>
    show min (wrapped src (ix2 e (0 : Fin 1))).toInt.toNat (40000 - 1) = ((src : S640000.Idx → BitVec 32) (ix1 e)).toInt.toNat
    rw [wrapped_apply src e (hsrc e).1]
    have := hsrc e
    omega
  | ⟨1, _⟩ => rfl

end Cert.KernelIdeal.Take

end
-- ==== Proof.KernelValue.lean ====
/-
  The kernel program's result array as a function of its arguments: the node update of the node features and of the
  aggregated messages, which are the reference's stage by stage — the projection of a gathered row is the gathered row
  of the projection, and every host operation between the two regions is the reference's own.
-/
import proofs.«404860_j34686155882688_1_alg».proof.Proof.KernelFold
import proofs.«404860_j34686155882688_1_alg».proof.Proof.Region0
import proofs.«404860_j34686155882688_1_alg».proof.Proof.Region1
import proofs.«404860_j34686155882688_1_alg».proof.Proof.RefMsg
import proofs.«404860_j34686155882688_1_alg».proof.Proof.RefTail
import proofs.«404860_j34686155882688_1_alg».proof.Proof.KernelTake
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx

namespace Cert.KernelIdeal.Value

open Cert.KernelIdeal Cert.KernelIdeal.Gen Cert.KernelIdeal.Fold Cert.Layer
open Cert.ReferenceIdeal.PRead (val_main_v11 val_main_v14 val_main_v22 val_main_v32)

/-- A vector cast to one row reads its entry. -/
theorem row_of_vec {α : Type} (b : S128.Idx → α) (j : Fin 128) :
    shapeCast S1x128 b shapeCasts_S128_S1x128 (ix2 0 j) = b (ix1 j) := by
  refine shapeCast_apply b shapeCasts_S128_S1x128 (ix2 0 j) (ix1 j) ?_
  rw [Shape.rowMajor_val_one, Shape.rowMajor_val_two]
  show j.val = 0 * 128 + j.val
  omega

/-- The slice of the first 128 rows of the first update weight is its top half, the slice of the last 128 its bottom half. -/
theorem top_half (x4 : S256x128.Idx → EReal) :
    (extractStridedSlice S128x128 ![0, 0] x4 slices_S256x128_S128x128_0_0 : S128x128.Idx → EReal) = topRows (K := 128) x4 := by
  funext i
  obtain ⟨l, k, rfl⟩ : ∃ (l k : Fin 128), i = ix2 l k := ⟨i 0, i 1, eq_ix2 i⟩
  rw [topRows_apply]
  refine extractStridedSlice_apply _ x4 _ (ix2 l k) _ fun a => ?_
  match a with
  | ⟨0, _⟩ => show l.val = 0 + l.val; omega
  | ⟨1, _⟩ => show k.val = 0 + k.val; omega
theorem bot_half (x4 : S256x128.Idx → EReal) :
    (extractStridedSlice S128x128 ![128, 0] x4 slices_S256x128_S128x128_128_0 : S128x128.Idx → EReal) = botRows (K := 128) x4 := by
  funext i
  obtain ⟨l, k, rfl⟩ : ∃ (l k : Fin 128), i = ix2 l k := ⟨i 0, i 1, eq_ix2 i⟩
  rw [botRows_apply]
  refine extractStridedSlice_apply _ x4 _ (ix2 l k) _ fun a => ?_
  match a with
  | ⟨0, _⟩ => show 128 + l.val = 128 + l.val; rfl
  | ⟨1, _⟩ => show k.val = 0 + k.val; omega

variable (m : (ℓ : Loc nD τ sig) → Buf (Elt Ideal) ℓ) (ρ : Dev nD → PrngReg)

/-- The projection kernel's result array is the projection of the node features. -/
theorem projected (c : Dev nD) : (W2 m ρ c (Proc.devRef .tc main_v1) : S40000x128.Idx → EReal)
    = project (m ((c : Thread nD τ).loc main_arg0) : S40000x128.Idx → EReal) (m ((c : Thread nD τ).loc main_arg2) : S128x128.Idx → EReal)
        (fun j => (m ((c : Thread nD τ).loc main_arg3) : S128.Idx → EReal) (ix1 j)) := by
  refine (W2_arr m ρ c 3).trans ((Project.final (V1 m ρ) c).trans ?_)
  show project (W1 m ρ c (Proc.devRef .tc main_arg0) : S40000x128.Idx → EReal) (W1 m ρ c (Proc.devRef .tc main_arg2) : S128x128.Idx → EReal)
      (fun j => (W1 m ρ c (Proc.devRef .tc main_v0) : S1x128.Idx → EReal) (ix2 0 j)) = _
  rw [W1_arg0, W1_arg2, W1_v0]
  simp only [row_of_vec]

variable (hsrc : ∀ (c : Dev nD) (e : Fin 640000), 0 ≤ ((m ((c : Thread nD τ).loc main_arg8) : S640000.Idx → BitVec 32) (ix1 e)).toInt
    ∧ ((m ((c : Thread nD τ).loc main_arg8) : S640000.Idx → BitVec 32) (ix1 e)).toInt < 40000)

include hsrc in
/-- The gathered messages are the reference's per-edge messages: both are the projection of the source row. -/
theorem messages (c : Dev nD) : (W3 m ρ c (Proc.devRef .tc main_v2) : S640000x128.Idx → EReal)
    = val_main_v11 (F := Ideal) (m ((c : Thread nD τ).loc main_arg0)) (m ((c : Thread nD τ).loc main_arg2)) (m ((c : Thread nD τ).loc main_arg3))
        (m ((c : Thread nD τ).loc main_arg8)) := by
  funext i
  obtain ⟨e, j, rfl⟩ : ∃ (e : Fin 640000) (j : Fin 128), i = ix2 e j := ⟨i 0, i 1, eq_ix2 i⟩
  rw [W3_v2, Take.take_apply _ _ (hsrc c) e j, projected,
    Cert.ReferenceIdeal.Messages.messages_apply _ _ _ _ e j (hsrc c e).1 (hsrc c e).2]

include hsrc in
/-- The aggregated array the update region is entered with is the reference's. -/
theorem aggregated (c : Dev nD) : (W6 m ρ c (Proc.devRef .tc main_v13) : S40000x128.Idx → EReal)
    = val_main_v22 (F := Ideal) (m ((c : Thread nD τ).loc main_arg0)) (m ((c : Thread nD τ).loc main_arg1)) (m ((c : Thread nD τ).loc main_arg2))
        (m ((c : Thread nD τ).loc main_arg3)) (m ((c : Thread nD τ).loc main_arg8)) (m ((c : Thread nD τ).loc main_arg9)) := by
  rw [W6_v13, messages m ρ hsrc c]
  rfl

include hsrc in
/-- The kernel program's result array is the reference's result, as functions of the arguments. -/
theorem result_value (c : Dev nD) : (W7 m ρ c (Proc.devRef .tc main_v18) : S40000x128.Idx → EReal)
    = val_main_v32 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  funext i
  obtain ⟨n, j, rfl⟩ : ∃ (n : Fin 40000) (j : Fin 128), i = ix2 n j := ⟨i 0, i 1, eq_ix2 i⟩
  rw [Cert.ReferenceIdeal.Tail.tail_apply]
  refine (congrFun ((W7_arr m ρ c 7).trans (Update.final (V6 m ρ) c)) (ix2 n j)).trans ?_
  show update (W6 m ρ c (Proc.devRef .tc main_arg0) : S40000x128.Idx → EReal) (W6 m ρ c (Proc.devRef .tc main_v13) : S40000x128.Idx → EReal)
      (W6 m ρ c (Proc.devRef .tc main_v14) : S128x128.Idx → EReal) (W6 m ρ c (Proc.devRef .tc main_v15) : S128x128.Idx → EReal)
      (fun k => (W6 m ρ c (Proc.devRef .tc main_v16) : S1x128.Idx → EReal) (ix2 0 k)) (W6 m ρ c (Proc.devRef .tc main_arg6) : S128x128.Idx → EReal)
      (fun k => (W6 m ρ c (Proc.devRef .tc main_v17) : S1x128.Idx → EReal) (ix2 0 k)) (ix2 n j) = _
  rw [W6_arg0, aggregated m ρ hsrc c, W6_v14, W6_v15, W6_v16, W6_arg6, W6_v17, top_half, bot_half]
  simp only [row_of_vec]

end Cert.KernelIdeal.Value

end
-- ==== Proof.lean ====
/-
  The claims. The kernel program computes the per-node projection relu(x·W_pre + b_pre) once, gathers its rows at the
  source indices, sums them into their destination rows and applies the node update with the first update weight split
  into its two halves; the reference projects the gathered rows, edge by edge, and applies the update to the concatenated
  [x, z]. Over the extended reals the two results are equal index by index for source indices that are row numbers
  (0 ≤ src < 40000, the precondition's added conjunct): a dense layer acts on each row by itself, so the projection of a
  gathered row is the gathered row of the projection; the aggregation is the same operations on equal messages; and a
  contraction over the 256 concatenated columns is the sum of the contractions over its two halves. Outside that range
  the kernel's gather fills a row with the not-a-number pattern where the reference's gather clamps the index, which is
  why the conjunct is needed. No finiteness is used: sums over the extended reals regroup freely.
-/
import proofs.«404860_j34686155882688_1_alg».proof.Defs
import proofs.«404860_j34686155882688_1_alg».proof.Proof.Gen.Kernel
import proofs.«404860_j34686155882688_1_alg».proof.Proof.Gen.Kernel.Frame
import proofs.«404860_j34686155882688_1_alg».proof.Proof.Gen.KernelIdeal
import proofs.«404860_j34686155882688_1_alg».proof.Proof.Gen.KernelIdeal.Frame
import proofs.«404860_j34686155882688_1_alg».proof.Proof.Gen.ReferenceIdeal
import proofs.«404860_j34686155882688_1_alg».proof.Proof.Gen.Pre_finite_inputs
import proofs.«404860_j34686155882688_1_alg».proof.Proof.RefRun
import proofs.«404860_j34686155882688_1_alg».proof.Proof.RefRead
import proofs.«404860_j34686155882688_1_alg».proof.Proof.RunValue
import proofs.«404860_j34686155882688_1_alg».proof.Proof.PreRange
import proofs.«404860_j34686155882688_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- Both kernel programs run, fault nowhere and leave their arguments as launched: the generated frames. -/
theorem frame_kernel : Cert.frame_Kernel := fun m ρ _ => Cert.Kernel.Gen.frame m ρ
theorem frame_kernelIdeal : Cert.frame_KernelIdeal := fun m ρ _ => Cert.KernelIdeal.Gen.frame m ρ
/-- The reference is a line of host operations: its run with the result dropped. -/
theorem frame_reference : Cert.frame_ReferenceIdeal := fun m ρ _ =>
  (θ_run Cert.ReferenceIdeal.defs _ _).mono (fun _ h c => (h c).2) (Cert.ReferenceIdeal.PValue.run (F := Ideal) m ρ)

/-- The ideal pass rewrote nothing. -/
theorem preserves : Cert.preserves_Kernel_KernelIdeal := trivial

/-- Under the precondition every source index of every device's copy is a row number. -/
theorem src_rows (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 640000) :
    0 ≤ ((m ((c : Thread Cert.KernelIdeal.nD Cert.KernelIdeal.τ).loc Cert.KernelIdeal.main_arg8) : Cert.KernelIdeal.S640000.Idx → BitVec 32) (ix1 e)).toInt
      ∧ ((m ((c : Thread Cert.KernelIdeal.nD Cert.KernelIdeal.τ).loc Cert.KernelIdeal.main_arg8) : Cert.KernelIdeal.S640000.Idx → BitVec 32) (ix1 e)).toInt < 40000 :=
  Cert.Pre_finite_inputs.Range.src_in_range _ _ _ _ _ _ _ _ _ _ (hpre c) (ix1 e)

/-- The two idealized programs end with equal result arrays: the kernel program's is the last boundary's contents of its
    result buffer, which is the reference's result term of the same arguments. -/
theorem algebraic : Cert.algebraic_KernelIdeal_ReferenceIdeal := by
  intro m ρ m' ρ' hpre hagree
  refine ⟨fun c => Cert.KernelIdeal.Gen.W7 m ρ c (Proc.devRef .tc Cert.KernelIdeal.main_v18), Cert.KernelIdeal.GenP.run_named m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v32_eq]
  obtain ⟨h0, h1, h2, h3, h4, h5, h6, h7, h8, h9⟩ := hagree c
  rw [h0, h1, h2, h3, h4, h5, h6, h7, h8, h9]
  exact (Cert.KernelIdeal.Value.result_value m ρ (fun c e => src_rows m hpre c e) c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
